-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S1x1x512x2048 : Shape := ⟨4, ![1, 1, 512, 2048]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1x1x512x2048 : S_.BroadcastsInDim S1x1x512x2048 (![] : Fin 0 → Fin S1x1x512x2048.rank)
  reducesTo_S1x1x512x2048_S_d0_1_2_3 : S1x1x512x2048.ReducesTo [0, 1, 2, 3] S_

variable [Facts]

def fn {F : FTy → Type} [FloatOps F] (main_arg0 : FVec F S8x4096x512 .f32) (main_arg1 : FVec F S1x1x512x2048 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S1x1x512x2048 .f32 := Host.absf main_arg1
  let main_cst_0 : FVec F S_ .f32 := constant S_ .f32 0x7F800000#32
  let main_v5 : FVec F S1x1x512x2048 .f32 := broadcastInDim S1x1x512x2048 ![] bcast_S_S1x1x512x2048 main_cst_0
  let main_v6 : IVec S1x1x512x2048 1 := cmpf .olt main_v4 main_v5
  let main_c_1 : IVec S_ 1 := constantI S_ 1 1#1
  let main_v7 : IVec S_ 1 := (fun x v => Host.reduce IntOp.andi x v reducesTo_S1x1x512x2048_S_d0_1_2_3 h_S_) main_v6 main_c_1
  let main_v8 : IVec S_ 1 := andi main_v3 main_v7
  main_v8
-- ==== Kernel.lean ====
abbrev S8x4096x512 : Shape := ⟨3, ![8, 4096, 512]⟩
abbrev S1x1x512x2048 : Shape := ⟨4, ![1, 1, 512, 2048]⟩
abbrev S32768x512 : Shape := ⟨2, ![32768, 512]⟩
abbrev S512x2048 : Shape := ⟨2, ![512, 2048]⟩
abbrev S32768x2048 : Shape := ⟨2, ![32768, 2048]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S8x4096x2048 : Shape := ⟨3, ![8, 4096, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x512, .f32⟩
  | .hbm, ⟨1, _⟩ => ⟨S1x1x512x2048, .f32⟩
  | .hbm, ⟨2, _⟩ => ⟨S32768x512, .f32⟩
  | .hbm, ⟨3, _⟩ => ⟨S512x2048, .f32⟩
  | .hbm, ⟨4, _⟩ => ⟨S32768x2048, .f32⟩
  | .hbm, ⟨5, _⟩ => ⟨S8x4096x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x4096x512_S32768x512 : S8x4096x512.ShapeCasts S32768x512
  shapeCasts_S1x1x512x2048_S512x2048 : S1x1x512x2048.ShapeCasts S512x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  reduces_S512x1024_S1024 : S512x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S32768x2048_S8x4096x2048 : S32768x2048.ShapeCasts S8x4096x2048
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x2048.size a
  hwx0_1 : ∀ i : grid0.Coords, EltTy.bits .f32 = 32 ∨ (Rect.block (s := S512x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x2048.size a
  hwx0_2 : ∀ i : grid0.Coords, EltTy.bits .f32 = 32 ∨ (Rect.block (s := S32768x2048) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S1x1x512x2048 : Shape := ⟨4, ![1, 1, 512, 2048]⟩
abbrev S512x2048 : Shape := ⟨2, ![512, 2048]⟩
abbrev S_ : Shape := ⟨0, ![]⟩
abbrev S8x4096 : Shape := ⟨2, ![8, 4096]⟩
abbrev S8x4096x1 : Shape := ⟨3, ![8, 4096, 1]⟩
abbrev S2048 : Shape := ⟨1, ![2048]⟩
abbrev S8x4096x2048 : Shape := ⟨3, ![8, 4096, 2048]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S1x1x512x2048, .f32⟩
  | .hbm, ⟨2, _⟩ => ⟨S512x2048, .f32⟩
  | .hbm, ⟨3, _⟩ => ⟨S8x4096x512, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S512x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S8x4096x2048, .f32⟩
  | .hbm, ⟨17, _⟩ => ⟨S_, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S1x1x512x2048_S512x2048 : S1x1x512x2048.ShapeCasts S512x2048
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  reducesTo_S512x2048_S2048_d0 : S512x2048.ReducesTo [0] S2048
  bcast_S_S2048 : S_.BroadcastsInDim S2048 (![] : Fin 0 → Fin S2048.rank)
  bcast_S_S8x4096x2048 : S_.BroadcastsInDim S8x4096x2048 (![] : Fin 0 → Fin S8x4096x2048.rank)
  bcast_S2048_S1x1x2048_2 : S2048.BroadcastsInDim S1x1x2048 (![2] : Fin 1 → Fin S1x1x2048.rank)
  bcast_S8x4096x1_S8x4096x2048_0_1_2 : S8x4096x1.BroadcastsInDim S8x4096x2048 (![0, 1, 2] : Fin 3 → Fin S8x4096x2048.rank)
  bcast_S1x1x2048_S8x4096x2048_0_1_2 : S1x1x2048.BroadcastsInDim S8x4096x2048 (![0, 1, 2] : Fin 3 → Fin S8x4096x2048.rank)
  dot_S8x4096x512_S512x2048_S8x4096x2048_2_0_01_1_n_n_wf : DotDims.WF S8x4096x512 S512x2048 S8x4096x2048 [2] [0] [0, 1] [1] [] []

variable [Facts₀]

def dot_S8x4096x512_S512x2048_S8x4096x2048_2_0_01_1_n_n : DotDims S8x4096x512 S512x2048 S8x4096x2048 where
  lhsContracting := [2]
  rhsContracting := [0]
  lhsNonContracting := [0, 1]
  rhsNonContracting := [1]
  lhsBatch := []
  rhsBatch := []
  wf := dot_S8x4096x512_S512x2048_S8x4096x2048_2_0_01_1_n_n_wf

class Facts : Prop extends Facts₀ where

variable [Facts]
-- ==== Proof.Spec.lean ====
/-
  The mathematics shared by both programs.  For a row `x` of 512 numbers and a codebook column `c` of 512 numbers the
  result entry is  (Σ x² ) / 512 + (Σ c²) / 512 − 2 · ((Σ x·c) / 512),  the mean squared distance between the row and the
  column written in its expanded (GEMM) form.  Every sum is a sum of extended reals, every quotient is the quotient of the
  ideal instance, and the three literals 512, 2 and 0 stay the binary words both programs print.
  `G` is the result over the three-axis arrays the programs take, `G2` the same over the row-major two-axis views the
  kernel works on, and `Gblk` over one 1024 × 512 row block and one 512 × 1024 column block; `G_of_views` says that
  `G2` of the two-axis views, viewed back with three axes, is `G`.
-/
import Idealize.ShloMosaic.PureOps.Ideal
import Idealize.ShloMosaic.Lib.ValueIdx
import Idealize.ShloMosaic.Lib.Pipeline.Value

noncomputable section

namespace Cert.SqDist

open Idealize.ShloMosaic Idealize.ShloMosaic.ValueIdx

/-- The word both programs print for 512, read at the ideal instance. -/
abbrev cD : EReal := Ideal.ofBits .f32 0x44000000#32
/-- The word both programs print for 2, read at the ideal instance. -/
abbrev cTwo : EReal := Ideal.ofBits .f32 0x40000000#32

/-- One entry of the result from a row of `x` and a column of the codebook. -/
def entry (xr cc : Fin 512 → EReal) : EReal :=
  (Ideal.div (∑ k : Fin 512, xr k * xr k) cD + Ideal.div (∑ k : Fin 512, cc k * cc k) cD)
    - cTwo * Ideal.div (∑ k : Fin 512, xr k * cc k) cD

abbrev SX3 : Shape := ⟨3, ![8, 4096, 512]⟩
abbrev SC4 : Shape := ⟨4, ![1, 1, 512, 2048]⟩
abbrev SO3 : Shape := ⟨3, ![8, 4096, 2048]⟩
abbrev SX2 : Shape := ⟨2, ![32768, 512]⟩
abbrev SC2 : Shape := ⟨2, ![512, 2048]⟩
abbrev SO2 : Shape := ⟨2, ![32768, 2048]⟩
abbrev SXb : Shape := ⟨2, ![1024, 512]⟩
abbrev SCb : Shape := ⟨2, ![512, 1024]⟩
abbrev SOb : Shape := ⟨2, ![1024, 1024]⟩

/-- The result over the arrays as the programs take them: entry (b, s, c) from row (b, s) of `x` and column c of the codebook. -/
def G (x : SX3.Idx → EReal) (cb : SC4.Idx → EReal) : SO3.Idx → EReal := fun i =>
  entry (fun k => x (ix3 (⟨(i 0).val, (i 0).isLt⟩ : Fin 8) (⟨(i 1).val, (i 1).isLt⟩ : Fin 4096) k))
    (fun k => cb (ix4 (0 : Fin 1) (0 : Fin 1) k (⟨(i 2).val, (i 2).isLt⟩ : Fin 2048)))

/-- The same over the two-axis views: entry (r, c) from row r and column c. -/
def G2 (X : SX2.Idx → EReal) (C : SC2.Idx → EReal) : SO2.Idx → EReal := fun i =>
  entry (fun k => X (ix2 (⟨(i 0).val, (i 0).isLt⟩ : Fin 32768) k)) (fun k => C (ix2 k (⟨(i 1).val, (i 1).isLt⟩ : Fin 2048)))

/-- The same over one row block and one column block. -/
def Gblk (X : SXb.Idx → EReal) (C : SCb.Idx → EReal) : SOb.Idx → EReal := fun j =>
  entry (fun k => X (ix2 (⟨(j 0).val, (j 0).isLt⟩ : Fin 1024) k)) (fun k => C (ix2 k (⟨(j 1).val, (j 1).isLt⟩ : Fin 1024)))

/-- Row (b, s) of the three-axis `x` is row 4096 b + s of its two-axis view, the codebook's column c is its view's column
    c, and entry (b, s, c) of the three-axis result is entry (4096 b + s, c) of the two-axis one: all three are row-major
    re-readings, so the result of the views, viewed back, is `G`. -/
theorem G_of_views (x : SX3.Idx → EReal) (cb : SC4.Idx → EReal) (hx : SX3.ShapeCasts SX2) (hc : SC4.ShapeCasts SC2)
    (ho : SO2.ShapeCasts SO3) :
    shapeCast SO3 (G2 (shapeCast SX2 x hx) (shapeCast SC2 cb hc)) ho = G x cb := by
  funext i
  have h0 : (i 0).val < 8 := (i 0).isLt
  have h1 : (i 1).val < 4096 := (i 1).isLt
  have h2 : (i 2).val < 2048 := (i 2).isLt
  rw [shapeCast_apply _ ho i (ix2 (⟨(i 0).val * 4096 + (i 1).val, by omega⟩ : Fin 32768) (⟨(i 2).val, h2⟩ : Fin 2048)) (by
    rw [Shape.rowMajor_val_two, Shape.rowMajor_val_three]; rfl)]
  unfold G2 G
  congr 1
  · funext k
    exact shapeCast_apply x hx _ _ (by rw [Shape.rowMajor_val_three, Shape.rowMajor_val_two]; rfl)
  · funext k
    exact shapeCast_apply cb hc _ _ (by
      rw [Shape.rowMajor_val_four, Shape.rowMajor_val_two]
      show ((0 * 1 + 0) * 512 + k.val) * 2048 + (i 2).val = k.val * 2048 + (i 2).val
      omega)

end Cert.SqDist

end
-- ==== Proof.RefIsG.lean ====
/-
  The reference computes `G`.  Read one operation at a time, entry (b, s, c) of the reference's result is
  (0 + Σ_k x[b,s,k]²) / 512 + (0 + Σ_k cb[0,0,k,c]²) / 512 − 2 · ((Σ_k x[b,s,k] · cb[0,0,k,c]) / 512): its two means keep
  their initial value 0, which adds nothing, and its einsum is the plain sum of products over the shared axis.
-/
import proofs.«108098_j9680856285671_1_alg».proof.Proof.Gen.ReferenceIdeal.Read
import proofs.«108098_j9680856285671_1_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx Cert.SqDist

/-- The row of `x` that entry `i`'s first mean sums over. -/
theorem row_sq (i : S8x4096x2048.Idx) (k : Fin 512) :
    idx_main_v2 (idx_main_v3 (idx_main_v14 i)) k
      = ix3 (⟨(i 0).val, (i 0).isLt⟩ : Fin 8) (⟨(i 1).val, (i 1).isLt⟩ : Fin 4096) k :=
  funext fun a => Fin.ext (by match a with | ⟨0, _⟩ => rfl | ⟨1, _⟩ => rfl | ⟨2, _⟩ => rfl)

/-- The same row, as the einsum reads it. -/
theorem row_dot (i : S8x4096x2048.Idx) (k : Fin 512) :
    lidx_main_v10 i k = ix3 (⟨(i 0).val, (i 0).isLt⟩ : Fin 8) (⟨(i 1).val, (i 1).isLt⟩ : Fin 4096) k :=
  funext fun a => Fin.ext (by match a with | ⟨0, _⟩ => rfl | ⟨1, _⟩ => rfl | ⟨2, _⟩ => rfl)

/-- Entry (k, c) of the two-axis codebook is entry (0, 0, k, c) of the four-axis one. -/
theorem cb_at (k : Fin 512) (c : Fin 2048) (j : S512x2048.Idx) (h0 : (j 0).val = k.val) (h1 : (j 1).val = c.val) :
    idx_main_v0 j = ix4 (0 : Fin 1) (0 : Fin 1) k c :=
  funext fun a => Fin.ext (by
    have hk := k.isLt
    have hc := c.isLt
    match a with
    | ⟨0, _⟩ => rfl
    | ⟨1, _⟩ => rfl
    | ⟨2, _⟩ => show ((j 0).val * 2048 + (j 1).val) / 2048 % 512 = k.val; rw [h0, h1]; omega
    | ⟨3, _⟩ => show ((j 0).val * 2048 + (j 1).val) % 2048 = c.val; rw [h0, h1]; omega)

/-- The codebook column that entry `i`'s second mean sums over. -/
theorem col_sq (i : S8x4096x2048.Idx) (k : Fin 512) :
    idx_main_v0 (idx_main_v7 (idx_main_v13 (idx_main_v15 i)) k)
      = ix4 (0 : Fin 1) (0 : Fin 1) k (⟨(i 2).val, (i 2).isLt⟩ : Fin 2048) :=
  cb_at k _ _ rfl rfl

/-- The same column, as the einsum reads it. -/
theorem col_dot (i : S8x4096x2048.Idx) (k : Fin 512) :
    idx_main_v0 (ridx_main_v10 i k) = ix4 (0 : Fin 1) (0 : Fin 1) k (⟨(i 2).val, (i 2).isLt⟩ : Fin 2048) :=
  cb_at k _ _ rfl rfl

/-- Entry by entry the reference's result is `G` of its two arguments. -/
theorem ref_is_G (x0 : (⟨S8x4096x512, .f32⟩ : BufTy).Contents (Elt Ideal)) (x1 : (⟨S1x1x512x2048, .f32⟩ : BufTy).Contents (Elt Ideal)) :
    val_main_v19 (F := Ideal) x0 x1 = G x0 x1 := by
  funext i
  simp only [val_main_v19_apply, val_main_v16_apply, val_main_v14_apply, val_main_v5_apply, val_main_v3_apply,
    val_main_v2_apply, val_main_v4_apply, val_main_cst_0_apply, val_main_cst_apply, val_main_v1_apply,
    val_main_v15_apply, val_main_v13_apply, val_main_v9_apply, val_main_v7_apply, val_main_v8_apply,
    val_main_cst_2_apply, val_main_cst_1_apply, val_main_v6_apply, val_main_v0_apply,
    val_main_v18_apply, val_main_v17_apply, val_main_cst_4_apply, val_main_v12_apply, val_main_v10_apply,
    val_main_v11_apply, val_main_cst_3_apply]
  simp only [row_sq, row_dot, col_sq, col_dot, Ideal.ofBits_def, Ideal.addf_def, Ideal.subf_def, Ideal.mulf_def,
    Ideal.hostDivf_def, Ideal.ofBits_zero_f32, zero_add]
  rfl

end Cert.ReferenceIdeal.RefValue

end
-- ==== Proof.Payload.lean ====
/-
  What the kernel body computes from one 1024 × 512 row block `x0` and one 512 × 1024 column block `x1`, read entry by
  entry at the ideal instance: entry (p, q) of the block it stores is
  (Σ_k x0[p,k]²) / 512 + (Σ_k x1[k,q]²) / 512 − 2 · ((Σ_k x0[p,k] · x1[k,q]) / 512).
  The row mean is a lane sum kept as a column and spread along the rows' entries, the column mean a sublane sum kept as a
  row and spread down the columns, and the cross term the matrix product into a zero accumulator (the change to bf16 is
  the identity on extended reals), a plain sum of products over the shared axis.
-/
import proofs.«108098_j9680856285671_1_alg».proof.Proof.Gen.KernelIdeal.Skeleton
import proofs.«108098_j9680856285671_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx Cert.SqDist

/-! ## The matrix product's operand indices, axis by axis -/

theorem lhs_mm_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_mm_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_mm_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_mm_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into a zero accumulator, at entry (p, q): the sum over the shared axis of row p times column q. -/
theorem mm_apply (a : FVec Ideal S1024x512 .bf16) (b : FVec Ideal S512x1024 .bf16) (p q : Fin 1024) :
    matmul dot_S1024x512_S512x1024_S1024x1024_1_0_0_1_n_n none a b (constant S1024x1024 .f32 0x00000000#32) (ix2 p q)
      = ∑ k : Fin 512, a (ix2 p k) * b (ix2 k q) := by
  refine (Ideal.matmul_constant_zero_apply dot_S1024x512_S512x1024_S1024x1024_1_0_0_1_n_n none a b (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun ax => Fin.ext (by
    match ax with
    | ⟨0, _⟩ => exact lhs_mm_0 _ _
    | ⟨1, _⟩ => exact (lhs_mm_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun ax => Fin.ext (by
    match ax with
    | ⟨0, _⟩ => exact (rhs_mm_0 _ _).trans hk
    | ⟨1, _⟩ => exact rhs_mm_1 _ _)
  rw [el, er]

/-! ## The two means -/

/-- A lane sum kept as a column: entry (p, 0) is the sum of row p. -/
theorem rowsum_apply (v : FVec Ideal S1024x512 .f32) (hφ : FKind.Formats .f32)
    (hacc : (0x00000000#32 : BitVec 32) = FKind.add.neutral .f32 hφ) (p : Fin 1024) :
    shapeCast S1024x1 (multiReduction .add [1] S1024 v 0x00000000#32 reduces_S1024x512_S1024 hφ hacc) shapeCasts_S1024_S1024x1
        (ix2 p (0 : Fin 1))
      = ∑ k : Fin 512, v (ix2 p k) := by
  refine (shapeCast_apply _ shapeCasts_S1024_S1024x1 (ix2 p (0 : Fin 1)) (ix1 p) (by
    rw [Shape.rowMajor_val_one, Shape.rowMajor_val_two]
    show p.val = p.val * 1 + 0
    omega)).trans ?_
  refine (Ideal.multiReduction_add_single v 0x00000000#32 reduces_S1024x512_S1024 hφ hacc (ix1 p)).trans ?_
  exact Finset.sum_congr rfl fun k _ => congrArg v (funext fun ax => Fin.ext (by
    match ax with
    | ⟨0, _⟩ => rfl
    | ⟨1, _⟩ => rfl))

/-- A sublane sum kept as a row: entry (0, q) is the sum of column q. -/
theorem colsum_apply (v : FVec Ideal S512x1024 .f32) (hφ : FKind.Formats .f32)
    (hacc : (0x00000000#32 : BitVec 32) = FKind.add.neutral .f32 hφ) (q : Fin 1024) :
    shapeCast S1x1024 (multiReduction .add [0] S1024 v 0x00000000#32 reduces_S512x1024_S1024 hφ hacc) shapeCasts_S1024_S1x1024
        (ix2 (0 : Fin 1) q)
      = ∑ k : Fin 512, v (ix2 k q) := by
  refine (shapeCast_a_1a_apply _ shapeCasts_S1024_S1x1024 (0 : Fin 1) q).trans ?_
  refine (Ideal.multiReduction_add_single v 0x00000000#32 reduces_S512x1024_S1024 hφ hacc (ix1 q)).trans ?_
  exact Finset.sum_congr rfl fun k _ => congrArg v (funext fun ax => Fin.ext (by
    match ax with
    | ⟨0, _⟩ => rfl
    | ⟨1, _⟩ => rfl))

/-- A column spread along the rows' entries reads its row's one entry. -/
theorem spread_col (v : FVec Ideal S1024x1 .f32) (p q : Fin 1024) :
    broadcastTo S1024x1024 v broadcasts_S1024x1_S1024x1024 (ix2 p q) = v (ix2 p (0 : Fin 1)) :=
  broadcastTo_apply v broadcasts_S1024x1_S1024x1024 (ix2 p q) (ix2 p (0 : Fin 1)) fun ax => by
    match ax with
    | ⟨0, _⟩ => rfl
    | ⟨1, _⟩ => rfl

/-! ## The stored block -/

/-- Entry (p, q) of what the body stores. -/
theorem pay_apply (x0 : Vec Ideal S1024x512 .f32) (x1 : Vec Ideal S512x1024 .f32) (p q : Fin 1024) :
    k0_pay1 (F := Ideal) x0 x1 (ix2 p q) = entry (fun k => x0 (ix2 p k)) (fun k => x1 (ix2 k q)) := by
  unfold k0_pay1 entry
  simp only [shapeCast_self]
  refine congrArg₂ (fun a b : EReal => a - b) (congrArg₂ (fun a b : EReal => a + b) ?_ ?_)
    (congrArg (fun a : EReal => cTwo * Ideal.div a cD) ?_)
  · refine (spread_col _ p q).trans ?_
    exact congrArg (fun a : EReal => Ideal.div a cD) (rowsum_apply _ _ _ p)
  · refine (broadcastTo_1b_ab_apply _ broadcasts_S1x1024_S1024x1024 p q).trans ?_
    exact congrArg (fun a : EReal => Ideal.div a cD) (colsum_apply _ _ _ q)
  · exact mm_apply _ _ p q

/-- The stored block is `Gblk` of the two blocks it loaded. -/
theorem pay_eq (x0 : Vec Ideal S1024x512 .f32) (x1 : Vec Ideal S512x1024 .f32) :
    k0_pay1 (F := Ideal) x0 x1 = Gblk x0 x1 := by
  funext j
  obtain ⟨p, q, rfl⟩ : ∃ (p : Fin 1024) (q : Fin 1024), j = ix2 p q := ⟨j 0, j 1, eq_ix2 j⟩
  exact pay_apply x0 x1 p q

end Cert.KernelIdeal.BodyValue

end
-- ==== Proof.ArrayValue.lean ====
/-
  From blocks to the array.  Grid point (i, j) loads rows 1024 i … 1024 i + 1023 of the two-axis `x` and columns
  1024 j … 1024 j + 1023 of the two-axis codebook, and writes back block (i, j) of the result.  So what each point writes
  back is its block of ONE function of the two arrays, `G2`; the 32 × 2 blocks tile the 32768 × 2048 result, every entry
  lies in the block of point (row / 1024, column / 1024), and the array ends holding `G2` of the two arrays.
-/
import proofs.«108098_j9680856285671_1_alg».proof.Proof.Gen.KernelIdeal.Frame
import proofs.«108098_j9680856285671_1_alg».proof.Proof.Payload
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ)

/-- The row block and the column block point `t` loads, and the two arrays as the region finds them. -/
abbrev xblk (c : Dev nD) (t : Fin cfg0.N) : Vec Ideal S1024x512 .f32 := iblk m c 0 t
abbrev cblk (c : Dev nD) (t : Fin cfg0.N) : Vec Ideal S512x1024 .f32 := iblk m c 1 t
abbrev xarr (c : Dev nD) : Vec Ideal S32768x512 .f32 := V m c main_v0
abbrev carr (c : Dev nD) : Vec Ideal S512x2048 .f32 := V m c main_v1

theorem zero_offsets : (![0, 0] : Fin 2 → Nat) = fun _ => 0 := funext fun a => by fin_cases a <;> rfl

/-- The three index maps over the grid: the row block follows the output's row-block index and starts at column 0, the
    column block follows the output's column-block index and starts at row 0, and the output's block indices stay in range. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 31 ∧ win0_2.index t (1 : Fin 2) ≤ 1 :=
  (by decide +kernel : ∀ t : Fin grid0.N, _)

/-- Every block of the 32 × 2 tiling is some point's. -/
theorem idx_onto : ∀ (q0 : Fin 32) (q1 : Fin 2), ∃ t : Fin cfg0.N, win0_2.index t = ![q0.val, q1.val] :=
  (by decide +kernel : ∀ (q0 : Fin 32) (q1 : Fin 2), ∃ t : Fin grid0.N, win0_2.index t = ![q0.val, q1.val])

/-- Entry (p, k) of the row block at point `t` is entry (1024 · row-block + p, k) of the array. -/
theorem xblk_apply (c : Dev nD) (t : Fin cfg0.N) (p : Fin 1024) (k : Fin 512) (r : Fin 32768)
    (hr : r.val = win0_2.index t (0 : Fin 2) * 1024 + 1 * p.val) :
    xblk m c t (ix2 p k) = xarr m c (ix2 r k) := by
  obtain ⟨e0, e1, -, -, -, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Entry (k, q) of the column block at point `t` is entry (k, 1024 · column-block + q) of the array. -/
theorem cblk_apply (c : Dev nD) (t : Fin cfg0.N) (k : Fin 512) (q : Fin 1024) (s : Fin 2048)
    (hs : s.val = win0_2.index t (1 : Fin 2) * 1024 + 1 * q.val) :
    cblk m c t (ix2 k q) = carr m c (ix2 k s) := by
  obtain ⟨-, -, e2, e3, -, -⟩ := idx_facts t
  show V m c main_v1 (((cfg0.win 1).blk t).view.emb (ix2 k q)) = V m c main_v1 (ix2 k s)
  refine congrArg (V m c main_v1) (funext fun a => Fin.ext ?_)
  match a with
  | ⟨0, _⟩ => show win0_1.index t (0 : Fin 2) * 512 + 1 * k.val = k.val; omega
  | ⟨1, _⟩ => show win0_1.index t (1 : Fin 2) * 1024 + 1 * q.val = s.val; omega

/-- Entry `j` of the block function of point `t`'s two blocks is the array function at the entry `j` sits at. -/
theorem blk_entry (c : Dev nD) (t : Fin cfg0.N) (j : S1024x1024.Idx) (i : S32768x2048.Idx)
    (h0 : (i 0).val = win0_2.index t (0 : Fin 2) * 1024 + 1 * (j 0).val)
    (h1 : (i 1).val = win0_2.index t (1 : Fin 2) * 1024 + 1 * (j 1).val) :
    Gblk (xblk m c t) (cblk m c t) j = G2 (xarr m c) (carr m c) i := by
  unfold Gblk G2
  refine congrArg₂ entry (funext fun k => ?_) (funext fun k => ?_)
  · exact xblk_apply m c t _ k _ h0
  · exact cblk_apply m c t k _ _ h1

/-- What point `t` writes back is block `t` of `G2` of the two arrays. -/
theorem flushed_eq (c : Dev nD) (t : Fin cfg0.N) :
    (dats m 0 c).flushed 2 t = ((cfg0.win 2).blk t).view.read (Elt Ideal) (G2 (xarr m c) (carr m c)) := by
  show (cfg0.win 2).cut (grid0.coords t) ((dats m 0 c).after 2 t) = _
  rw [after0_2]
  unfold out0_2
  rw [View.canon_unit_zero zero_offsets]
  simp only [View.ld_unit_zero (S := S1024x512) zero_offsets, View.ld_unit_zero (S := S512x1024) zero_offsets]
  rw [BodyValue.pay_eq]
  funext j
  show Gblk (xblk m c t) (cblk m c t) j = G2 (xarr m c) (carr m c) (((cfg0.win 2).blk t).view.emb j)
  exact blk_entry m c t j _ rfl rfl

/-- An entry of the array is in point `t`'s block iff each coordinate is in the block's range on its axis. -/
theorem mem_blk (t : Fin cfg0.N) (i : S32768x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every entry is in the block of the point at (row / 1024, column / 1024), which writes its block back. -/
theorem cover (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is `G2` of the two arrays as the region found them. -/
theorem final (c : Dev nD) : (dats m 0 c).arrAt 2 cfg0.N = G2 (xarr m c) (carr m c) :=
  (dats m 0 c).arrAt_eq_of_cover 2 (G2 (xarr m c) (carr m c)) (fun t _ => flushed_eq m c t) cover

end Cert.KernelIdeal.ArrayValue

end
-- ==== Proof.RunValue.lean ====
/-
  The kernel program's run, read as a value.  Before the region the host views `x` as 32768 × 512 and the codebook as
  512 × 2048 (row-major re-readings); the region leaves the 32768 × 2048 result at `G2` of those two views; after the
  region the host views the result as 8 × 4096 × 2048.  Composed, the program's result is `G` of its two arguments.
-/
import proofs.«108098_j9680856285671_1_alg».proof.Proof.ArrayValue
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

/-- The `x` the region finds is the two-axis view of the argument. -/
theorem xarr_eq (c : Dev nD) :
    ArrayValue.xarr m c = shapeCast S32768x512 (m ((c : Thread nD τ).loc main_arg0)) shapeCasts_S8x4096x512_S32768x512 := by
  show StableHlo.after hostOps0 (fun b => m (c, b)) (Proc.devRef .tc main_v0) = _
  after_results
  rfl

/-- The codebook the region finds is the two-axis view of the argument. -/
theorem carr_eq (c : Dev nD) :
    ArrayValue.carr m c = shapeCast S512x2048 (m ((c : Thread nD τ).loc main_arg1)) shapeCasts_S1x1x512x2048_S512x2048 := by
  show StableHlo.after hostOps0 (fun b => m (c, b)) (Proc.devRef .tc main_v1) = _
  after_results
  rfl

/-- The program's result is the three-axis view of the array the region leaves. -/
theorem result_eq (c : Dev nD) :
    Pipeline.afterTail₀ cfgs (dats m) 0 (V0 m) [hostOps1] c main_v3
      = shapeCast S8x4096x2048 ((dats m 0 c).arrAt 2 cfg0.N) shapeCasts_S32768x2048_S8x4096x2048 := by
  unfold Pipeline.afterTail₀
  show StableHlo.after hostOps1 _ (Proc.devRef .tc main_v3) = _
  after_results
  exact congrArg (fun a => shapeCast S8x4096x2048 a shapeCasts_S32768x2048_S8x4096x2048)
    (Pipeline.withArrays_arr spec0 launch0.win.arr_inj c (V0 m c) (fun w => (dats m 0 c).arrAt w cfg0.N) 2)

/-- The program's result, as a function of its two arguments. -/
theorem result_value (c : Dev nD) :
    Pipeline.afterTail₀ cfgs (dats m) 0 (V0 m) [hostOps1] c main_v3
      = G (m ((c : Thread nD τ).loc main_arg0)) (m ((c : Thread nD τ).loc main_arg1)) := by
  rw [result_eq, ArrayValue.final, xarr_eq, carr_eq]
  exact G_of_views _ _ _ _ _

/-- Every weakly fair execution of the kernel program ends with its result at `G` of the two arguments and the
    arguments unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (result_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RunValue

end
-- ==== Proof.lean ====
/-
  The kernel tiles the 32768 × 2048 table of mean squared distances between the rows of `x` and the columns of the
  codebook into 32 × 2 blocks and computes each block in the expanded form
  mean(x²) + mean(c²) − 2 · (x · c) / 512, with the cross term as one matrix product; the reference computes the same
  expanded form over the whole arrays.  At the ideal instance both are, entry by entry, the function `Cert.SqDist.G` of
  the two arguments: the same three sums over the shared axis of 512, the same three quotients by 512, the same product
  with 2, combined in the same order, so no law of the extended reals beyond re-indexing the sums is used and the
  finiteness of the inputs is never opened.
  The kernel side: the stored block entry by entry (Payload), the array after the run from its blocks (ArrayValue), the
  program's result through the host's row-major re-readings before and after the region (RunValue).  The reference side:
  its run read one operation at a time (RefIsG).  The idealization rewrote nothing, so the kernel's sanctioned
  idealization has nothing to state.
-/
import proofs.«108098_j9680856285671_1_alg».proof.Defs
import proofs.«108098_j9680856285671_1_alg».proof.Proof.Gen.Kernel
import proofs.«108098_j9680856285671_1_alg».proof.Proof.Gen.Kernel.Frame
import proofs.«108098_j9680856285671_1_alg».proof.Proof.Gen.KernelIdeal
import proofs.«108098_j9680856285671_1_alg».proof.Proof.Gen.KernelIdeal.Frame
import proofs.«108098_j9680856285671_1_alg».proof.Proof.Gen.ReferenceIdeal
import proofs.«108098_j9680856285671_1_alg».proof.Proof.Gen.Pre_finite_inputs
import proofs.«108098_j9680856285671_1_alg».proof.Proof.Gen.ReferenceIdeal.Run
import proofs.«108098_j9680856285671_1_alg».proof.Proof.Gen.ReferenceIdeal.Read
import proofs.«108098_j9680856285671_1_alg».proof.Proof.RefIsG
import proofs.«108098_j9680856285671_1_alg».proof.Proof.RunValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `G` of the arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_is_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
